-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x8000 : Shape := ⟨3, ![128, 64, 8000]⟩
abbrev S64 : Shape := ⟨1, ![64]⟩
abbrev S_ : Shape := ⟨0, ![]⟩

class Facts : Prop where
  bcast_S_S128x64x8000 : S_.BroadcastsInDim S128x64x8000 (![] : Fin 0 → Fin S128x64x8000.rank)
  reducesTo_S128x64x8000_S_d0_1_2 : S128x64x8000.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S128x64x8000 .f32) (main_arg1 : FVec F S64 .f32) (main_arg2 : FVec F S64 .f32) : IVec S_ 1 :=
  let main_v0 : FVec F S128x64x8000 .f32 := Host.absf main_arg0
  let main_cst : FVec F S_ .f32 := constant S_ .f32 0x7F800000#32
  let main_v1 : FVec F S128x64x8000 .f32 := broadcastInDim S128x64x8000 ![] bcast_S_S128x64x8000 main_cst
  let main_v2 : IVec S128x64x8000 1 := cmpf .olt main_v0 main_v1
  let main_c : IVec S_ 1 := constantI S_ 1 1#1
  let main_v3 : IVec S_ 1 := (fun x v => Host.reduce IntOp.andi x v reducesTo_S128x64x8000_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S128x64x8000 : Shape := ⟨3, ![128, 64, 8000]⟩
abbrev S64 : Shape := ⟨1, ![64]⟩
abbrev S64x1 : Shape := ⟨2, ![64, 1]⟩
abbrev S4x64x8000 : Shape := ⟨3, ![4, 64, 8000]⟩
abbrev S4x64 : Shape := ⟨2, ![4, 64]⟩
abbrev S4x64x1 : Shape := ⟨3, ![4, 64, 1]⟩
abbrev S_ : Shape := ⟨0, ![]⟩
abbrev S1x64x1 : Shape := ⟨3, ![1, 64, 1]⟩
abbrev S2x64x8000 : Shape := ⟨3, ![2, 64, 8000]⟩
abbrev S128x64x4000x2 : Shape := ⟨4, ![128, 64, 4000, 2]⟩
abbrev S128x64x4000 : Shape := ⟨3, ![128, 64, 4000]⟩

abbrev nBuf : Space → Nat
  | .hbm => 28
  | .vmem => 12
  | .smem => 0
  | _ => 0

abbrev bufTy : (tb : Table) → Fin (tcTables nBuf tb) → BufTy
  | .hbm, ⟨0, _⟩ => ⟨S128x64x8000, .f32⟩
  | .hbm, ⟨1, _⟩ => ⟨S64, .f32⟩
  | .hbm, ⟨2, _⟩ => ⟨S64, .f32⟩
  | .hbm, ⟨3, _⟩ => ⟨S64x1, .f32⟩
  | .hbm, ⟨4, _⟩ => ⟨S64x1, .f32⟩
  | .hbm, ⟨5, _⟩ => ⟨S_, .f32⟩
  | .hbm, ⟨6, _⟩ => ⟨S64x1, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S64x1, .f32⟩
  | .hbm, ⟨12, _⟩ => ⟨S64x1, .f32⟩
  | .hbm, ⟨13, _⟩ => ⟨S_, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S1x64x1, .f32⟩
  | .hbm, ⟨18, _⟩ => ⟨S1x64x1, .f32⟩
  | .hbm, ⟨19, _⟩ => ⟨S1x64x1, .f32⟩
  | .hbm, ⟨20, _⟩ => ⟨S1x64x1, .f32⟩
  | .hbm, ⟨21, _⟩ => ⟨S128x64x8000, .f32⟩
  | .hbm, ⟨22, _⟩ => ⟨S128x64x4000x2, .f32⟩
  | .hbm, ⟨23, _⟩ => ⟨S_, .f32⟩
  | .hbm, ⟨24, _⟩ => ⟨S128x64x4000, .f32⟩
  | .hbm, ⟨25, _⟩ => ⟨S_, .f32⟩
  | .hbm, ⟨26, _⟩ => ⟨S128x64x4000, .f32⟩
  | .hbm, ⟨27, _⟩ => ⟨S128x64x4000, .f32⟩
  | .local _ .vmem, ⟨0, _⟩ => ⟨S4x64x8000, .f32⟩
  | .local _ .vmem, ⟨1, _⟩ => ⟨S4x64x8000, .f32⟩
  | .local _ .vmem, ⟨2, _⟩ => ⟨S64x1, .f32⟩
  | .local _ .vmem, ⟨3, _⟩ => ⟨S64x1, .f32⟩
  | .local _ .vmem, ⟨4, _⟩ => ⟨S2x64x8000, .f32⟩
  | .local _ .vmem, ⟨5, _⟩ => ⟨S2x64x8000, .f32⟩
  | .local _ .vmem, ⟨6, _⟩ => ⟨S1x64x1, .f32⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | .local _ .vmem, ⟨10, _⟩ => ⟨S2x64x8000, .f32⟩
  | .local _ .vmem, ⟨11, _⟩ => ⟨S2x64x8000, .f32⟩
  | _, _ => ⟨S128x64x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem5_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x64x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x64x8000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2x64x8000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  inb_S64x1_S64x1_0_0 : ∀ a, (![0, 0] : Fin 2 → Nat) a + S64x1.size a ≤ S64x1.size a
  h_S64x1 : 0 < S64x1.numel
  inb_S4x64x8000_S4x64x8000_0_0_0 : ∀ a, (![0, 0, 0] : Fin 3 → Nat) a + S4x64x8000.size a ≤ S4x64x8000.size a
  h_S4x64x8000 : 0 < S4x64x8000.numel
  reduces_S4x64x8000_S4x64 : S4x64x8000.Reduces [2] S4x64
  shapeCasts_S4x64_S4x64x1 : S4x64.ShapeCasts S4x64x1
  reduces_S4x64x1_S64x1 : S4x64x1.Reduces [0] S64x1
  shapeCasts_S64x1_S64x1 : S64x1.ShapeCasts S64x1
  bcast_S_S64x1 : S_.BroadcastsInDim S64x1 (![] : Fin 0 → Fin S64x1.rank)
  shapeCasts_S64x1_S1x64x1 : S64x1.ShapeCasts S1x64x1
  shapeCasts_S64_S1x64x1 : S64.ShapeCasts S1x64x1
  inb_S2x64x8000_S2x64x8000_0_0_0 : ∀ a, (![0, 0, 0] : Fin 3 → Nat) a + S2x64x8000.size a ≤ S2x64x8000.size a
  h_S2x64x8000 : 0 < S2x64x8000.numel
  inb_S1x64x1_S1x64x1_0_0_0 : ∀ a, (![0, 0, 0] : Fin 3 → Nat) a + S1x64x1.size a ≤ S1x64x1.size a
  h_S1x64x1 : 0 < S1x64x1.numel
  shapeCasts_S1x64x1_S1x64x1 : S1x64x1.ShapeCasts S1x64x1
  broadcasts_S1x64x1_S2x64x8000 : S1x64x1.Broadcasts S2x64x8000
  shapeCasts_S128x64x8000_S128x64x4000x2 : S128x64x8000.ShapeCasts S128x64x4000x2
  reducesTo_S128x64x4000x2_S128x64x4000_d3 : S128x64x4000x2.ReducesTo [3] S128x64x4000
  h_S_ : 0 < S_.numel
  bcast_S_S128x64x4000 : S_.BroadcastsInDim S128x64x4000 (![] : Fin 0 → Fin S128x64x4000.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x64x8000.size a ≤ S128x64x8000.size a
  hwx0_0 : ∀ i : grid0.Coords, EltTy.bits .f32 = 32 ∨ (Rect.block (s := S128x64x8000) S4x64x8000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x64x8000.size a ≤ S128x64x8000.size a
  hwx1_0 : ∀ i : grid1.Coords, EltTy.bits .f32 = 32 ∨ (Rect.block (s := S128x64x8000) S2x64x8000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64x1.size a ≤ S1x64x1.size a
  hwx1_1 : ∀ i : grid1.Coords, EltTy.bits .f32 = 32 ∨ (Rect.block (s := S1x64x1) S1x64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64x1.size a ≤ S1x64x1.size a
  hwx1_2 : ∀ i : grid1.Coords, EltTy.bits .f32 = 32 ∨ (Rect.block (s := S1x64x1) S1x64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64x1.size a ≤ S1x64x1.size a
  hwx1_3 : ∀ i : grid1.Coords, EltTy.bits .f32 = 32 ∨ (Rect.block (s := S1x64x1) S1x64x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64x1.size a ≤ S1x64x1.size a
  hwx1_4 : ∀ i : grid1.Coords, EltTy.bits .f32 = 32 ∨ (Rect.block (s := S1x64x1) S1x64x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x64x8000.size a ≤ S128x64x8000.size a
  hwx1_5 : ∀ i : grid1.Coords, EltTy.bits .f32 = 32 ∨ (Rect.block (s := S128x64x8000) S2x64x8000.size (cc1_transform_5 i) (hinb1_5 i)).WholeWords (EltTy.packing .f32)

variable [Facts₀]

abbrev win0_0 : Pipeline.Window sig grid0 :=
  Pipeline.Window.ofSpec (Memref.whole main_arg0) S4x64x8000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S64x1.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S64x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2x64x8000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v13) S1x64x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v14) S2x64x8000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S128x64x8000 : Shape := ⟨3, ![128, 64, 8000]⟩
abbrev S64 : Shape := ⟨1, ![64]⟩
abbrev S_ : Shape := ⟨0, ![]⟩
abbrev S1x64x1 : Shape := ⟨3, ![1, 64, 1]⟩
abbrev S128x64x4000x2 : Shape := ⟨4, ![128, 64, 4000, 2]⟩
abbrev S128x64x4000 : Shape := ⟨3, ![128, 64, 4000]⟩

abbrev nBuf : Space → Nat
  | .hbm => 43
  | .vmem => 0
  | .smem => 0
  | _ => 0

abbrev bufTy : (tb : Table) → Fin (tcTables nBuf tb) → BufTy
  | .hbm, ⟨0, _⟩ => ⟨S128x64x8000, .f32⟩
  | .hbm, ⟨1, _⟩ => ⟨S64, .f32⟩
  | .hbm, ⟨2, _⟩ => ⟨S64, .f32⟩
  | .hbm, ⟨3, _⟩ => ⟨S128x64x8000, .f32⟩
  | .hbm, ⟨4, _⟩ => ⟨S_, .f32⟩
  | .hbm, ⟨5, _⟩ => ⟨S128x64x8000, .f32⟩
  | .hbm, ⟨6, _⟩ => ⟨S128x64x8000, .f32⟩
  | .hbm, ⟨7, _⟩ => ⟨S128x64x8000, .f32⟩
  | .hbm, ⟨8, _⟩ => ⟨S_, .f32⟩
  | .hbm, ⟨9, _⟩ => ⟨S64, .f32⟩
  | .hbm, ⟨10, _⟩ => ⟨S1x64x1, .f32⟩
  | .hbm, ⟨11, _⟩ => ⟨S_, .f32⟩
  | .hbm, ⟨12, _⟩ => ⟨S1x64x1, .f32⟩
  | .hbm, ⟨13, _⟩ => ⟨S1x64x1, .f32⟩
  | .hbm, ⟨14, _⟩ => ⟨S128x64x8000, .f32⟩
  | .hbm, ⟨15, _⟩ => ⟨S128x64x8000, .f32⟩
  | .hbm, ⟨16, _⟩ => ⟨S128x64x8000, .f32⟩
  | .hbm, ⟨17, _⟩ => ⟨S_, .f32⟩
  | .hbm, ⟨18, _⟩ => ⟨S64, .f32⟩
  | .hbm, ⟨19, _⟩ => ⟨S1x64x1, .f32⟩
  | .hbm, ⟨20, _⟩ => ⟨S_, .f32⟩
  | .hbm, ⟨21, _⟩ => ⟨S1x64x1, .f32⟩
  | .hbm, ⟨22, _⟩ => ⟨S1x64x1, .f32⟩
  | .hbm, ⟨23, _⟩ => ⟨S128x64x8000, .f32⟩
  | .hbm, ⟨24, _⟩ => ⟨S128x64x8000, .f32⟩
  | .hbm, ⟨25, _⟩ => ⟨S_, .f32⟩
  | .hbm, ⟨26, _⟩ => ⟨S1x64x1, .f32⟩
  | .hbm, ⟨27, _⟩ => ⟨S1x64x1, .f32⟩
  | .hbm, ⟨28, _⟩ => ⟨S1x64x1, .f32⟩
  | .hbm, ⟨29, _⟩ => ⟨S128x64x8000, .f32⟩
  | .hbm, ⟨30, _⟩ => ⟨S128x64x8000, .f32⟩
  | .hbm, ⟨31, _⟩ => ⟨S1x64x1, .f32⟩
  | .hbm, ⟨32, _⟩ => ⟨S128x64x8000, .f32⟩
  | .hbm, ⟨33, _⟩ => ⟨S128x64x8000, .f32⟩
  | .hbm, ⟨34, _⟩ => ⟨S1x64x1, .f32⟩
  | .hbm, ⟨35, _⟩ => ⟨S128x64x8000, .f32⟩
  | .hbm, ⟨36, _⟩ => ⟨S128x64x8000, .f32⟩
  | .hbm, ⟨37, _⟩ => ⟨S128x64x4000x2, .f32⟩
  | .hbm, ⟨38, _⟩ => ⟨S_, .f32⟩
  | .hbm, ⟨39, _⟩ => ⟨S128x64x4000, .f32⟩
  | .hbm, ⟨40, _⟩ => ⟨S_, .f32⟩
  | .hbm, ⟨41, _⟩ => ⟨S128x64x4000, .f32⟩
  | .hbm, ⟨42, _⟩ => ⟨S128x64x4000, .f32⟩
  | _, _ => ⟨S128x64x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S_S128x64x8000 : S_.BroadcastsInDim S128x64x8000 (![] : Fin 0 → Fin S128x64x8000.rank)
  reducesTo_S128x64x8000_S64_d0_2 : S128x64x8000.ReducesTo [0, 2] S64
  h_S_ : 0 < S_.numel
  bcast_S64_S1x64x1_1 : S64.BroadcastsInDim S1x64x1 (![1] : Fin 1 → Fin S1x64x1.rank)
  bcast_S_S1x64x1 : S_.BroadcastsInDim S1x64x1 (![] : Fin 0 → Fin S1x64x1.rank)
  bcast_S1x64x1_S128x64x8000_0_1_2 : S1x64x1.BroadcastsInDim S128x64x8000 (![0, 1, 2] : Fin 3 → Fin S128x64x8000.rank)
  shapeCasts_S128x64x8000_S128x64x4000x2 : S128x64x8000.ShapeCasts S128x64x4000x2
  reducesTo_S128x64x4000x2_S128x64x4000_d3 : S128x64x4000x2.ReducesTo [3] S128x64x4000
  bcast_S_S128x64x4000 : S_.BroadcastsInDim S128x64x4000 (![] : Fin 0 → Fin S128x64x4000.rank)

variable [Facts₀]

class Facts : Prop extends Facts₀ where

variable [Facts]
-- ==== Proof.Algebra.lean ====
/-
  The two forms of the variance agree on real data.

  For finitely many real numbers g_i and N their count, with mean μ = (Σ g_i) / N,
      (Σ (g_i - μ)²) / N  =  (Σ g_i²) / N - μ².
  Expanding the square gives Σ g_i² - 2 μ Σ g_i + N μ², and Σ g_i = N μ turns the last two terms into - N μ².
  The extended reals do not distribute at the infinities, so the statement over them asks that every datum be a
  real number; it is then the real identity under the inclusion of ℝ, every operation involved (sum, product,
  difference, quotient by the nonzero real N) commuting with that inclusion.
-/
import Idealize.ShloMosaic.PureOps.Ideal
import Mathlib.Algebra.BigOperators.Field
import Mathlib.Tactic.Ring
import Mathlib.Tactic.FieldSimp

open scoped BigOperators

namespace Cert.LogBn

open Idealize.ShloMosaic

/-- The inclusion of the reals in the extended reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The variance identity over the reals, with the quotients written as products with 1 / N. -/
theorem real_var {ι : Type*} [Fintype ι] (g : ι → ℝ) (N : ℝ) (hN : N = (Fintype.card ι : ℝ)) (hN0 : N ≠ 0) :
    (∑ i, (g i - (∑ j, g j) * (1 / N)) * (g i - (∑ j, g j) * (1 / N))) * (1 / N)
      = (∑ i, g i * g i) * (1 / N) - ((∑ j, g j) * (1 / N)) * ((∑ j, g j) * (1 / N)) := by
  have expand : ∀ c : ℝ, ∑ i, (g i - c) * (g i - c) = (∑ i, g i * g i) - 2 * c * (∑ i, g i) + (Fintype.card ι : ℝ) * (c * c) := by
    intro c
    have : ∀ i, (g i - c) * (g i - c) = g i * g i - 2 * c * g i + c * c := fun i => by ring
    simp only [this, Finset.sum_add_distrib, Finset.sum_sub_distrib, ← Finset.mul_sum, Finset.sum_const, Finset.card_univ,
      nsmul_eq_mul]
    ring
  rw [expand, ← hN]
  field_simp
  ring

/-- The same over the extended reals, for data that are real numbers: the mean and both variances are taken with
    the quotient `Ideal.div` by the real N. -/
theorem var_two_forms {ι : Type*} [Fintype ι] (f : ι → EReal) (hf : ∀ i, ∃ r : ℝ, f i = (r : EReal)) (N : ℝ)
    (hN : N = (Fintype.card ι : ℝ)) (hN0 : N ≠ 0) :
    Ideal.div (∑ i, (f i - Ideal.div (∑ j, f j) (N : EReal)) * (f i - Ideal.div (∑ j, f j) (N : EReal))) (N : EReal)
      = Ideal.div (∑ i, f i * f i) (N : EReal) - Ideal.div (∑ j, f j) (N : EReal) * Ideal.div (∑ j, f j) (N : EReal) := by
  choose g hg using hf
  have hfg : f = fun i => (g i : EReal) := funext hg
  subst hfg
  simp only [Ideal.div_coe hN0, ← coe_sum, ← EReal.coe_mul, ← EReal.coe_sub]
  exact congrArg _ (real_var g N hN hN0)

end Cert.LogBn
-- ==== Proof.Consts.lean ====
/-
  The float constants of the two programs as the extended reals their patterns denote: the count of entries per
  channel, 128 · 8000 = 1 024 000, is an exact float; the guard added inside the logarithm is a positive real (its
  exact value, a dyadic rational near 10⁻⁶, is never needed: the same pattern stands on both sides).
-/
import Idealize.ShloMosaic.PureOps.Ideal

noncomputable section

namespace Cert.LogBn.Consts

open Idealize.ShloMosaic

/-- The pattern of `1.024e6` denotes the real 1 024 000. -/
theorem ofBits_count : Ideal.ofBits .f32 0x497A0000#32 = ((1024000 : ℝ) : EReal) := by
  simp [Ideal.ofBits, Ideal.ieee, -EReal.coe_mul]; norm_num

/-- The guard inside the logarithm denotes a positive real. -/
theorem ofBits_guard_pos : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-- The pattern the precondition compares against denotes +∞. -/
theorem ofBits_inf : Ideal.ofBits .f32 0x7F800000#32 = (⊤ : EReal) := by
  simp [Ideal.ofBits, Ideal.ieee]

end Cert.LogBn.Consts

end
-- ==== Proof.Spec.lean ====
/-
  Log compression, batch normalisation over batch and position, and a 2 : 1 average pool, as functions of the
  argument arrays.

  With y = log (|x| + ε) entry by entry, a channel's mean is μ = (Σ y) / N over the N = 128 · 8000 entries of the
  channel.  One program takes the variance as (Σ y²) / N - μ², the other as (Σ (y - μ)²) / N; both then scale
  (y - μ) by 1 / √(variance + ε'), by the channel's weight, add the channel's bias, and average neighbouring pairs
  along the last axis.  The two variances are the same number as soon as every entry of x is a real number: |x| + ε
  is then a positive real, its logarithm a real, and the identity is the one of the real numbers.
-/
import proofs.«419528_j10256381903615_3_alg».proof.Proof.Algebra
import proofs.«419528_j10256381903615_3_alg».proof.Proof.Consts
import Idealize.ShloMosaic.PureOps
import Idealize.ShloMosaic.PureOps.Ideal
import Idealize.ShloMosaic.PureOps.Ideal.Laws
import Idealize.ShloMosaic.Lib.ValueIdx

open scoped BigOperators

noncomputable section

namespace Cert.LogBn

open Idealize.ShloMosaic Idealize.ShloMosaic.ValueIdx

abbrev X3 : Shape := ⟨3, ![128, 64, 8000]⟩
abbrev C1 : Shape := ⟨1, ![64]⟩
abbrev P4 : Shape := ⟨4, ![128, 64, 4000, 2]⟩
abbrev P3 : Shape := ⟨3, ![128, 64, 4000]⟩
abbrev Sc : Shape := ⟨0, ![]⟩

/-- The compressed entry log (|x| + ε): the absolute value as the larger of x and -x, the guard ε the float
    pattern both programs spell. -/
def ly (x : EReal) : EReal := Ideal.log (max x (-x) + Ideal.ofBits .f32 0x358637BD#32)

/-- The sum over batch and position. -/
def dsum (g : Fin 128 → Fin 8000 → EReal) : EReal := ∑ b : Fin 128, ∑ l : Fin 8000, g b l

/-- The number of entries of a channel, as both programs spell it. -/
def count : EReal := Ideal.ofBits .f32 0x497A0000#32

/-- The guard added to the variance. -/
def guardBn : EReal := Ideal.ofBits .f32 0x3727C5AC#32

/-- A channel's mean of the compressed entries. -/
def mean (x : X3.Idx → EReal) (ch : Fin 64) : EReal := Ideal.div (dsum fun b l => ly (x (ix3 b ch l))) count

/-- The variance as the mean of the squares less the square of the mean. -/
def varOfSquares (x : X3.Idx → EReal) (ch : Fin 64) : EReal :=
  Ideal.div (dsum fun b l => ly (x (ix3 b ch l)) * ly (x (ix3 b ch l))) count - mean x ch * mean x ch

/-- The variance as the mean of the squared deviations. -/
def varOfDeviations (x : X3.Idx → EReal) (ch : Fin 64) : EReal :=
  Ideal.div (dsum fun b l => (ly (x (ix3 b ch l)) - mean x ch) * (ly (x (ix3 b ch l)) - mean x ch)) count

/-- The normalised, scaled and shifted entry at batch b, channel ch, position l, for a given per-channel variance. -/
def normAt (x : X3.Idx → EReal) (gamma beta : C1.Idx → EReal) (var : Fin 64 → EReal) (b : Fin 128) (ch : Fin 64)
    (l : Fin 8000) : EReal :=
  (ly (x (ix3 b ch l)) - mean x ch) * Ideal.rsqrt (var ch + guardBn) * gamma (ix1 ch) + beta (ix1 ch)

/-- The normalised array. -/
def normed (x : X3.Idx → EReal) (gamma beta : C1.Idx → EReal) (var : Fin 64 → EReal) : X3.Idx → EReal :=
  fun i => normAt x gamma beta var (i 0 : Fin 128) (i 1 : Fin 64) (i 2 : Fin 8000)

theorem normed_ix3 (x : X3.Idx → EReal) (gamma beta : C1.Idx → EReal) (var : Fin 64 → EReal) (b : Fin 128) (ch : Fin 64)
    (l : Fin 8000) : normed x gamma beta var (ix3 b ch l) = normAt x gamma beta var b ch l := rfl

/-- The 2 : 1 average pool along the last axis as the host computes it: the array regrouped in pairs, each pair
    summed from zero, the sum halved.  Both programs end with exactly these operations, so they are carried as one
    function and never opened. -/
def pool (h1 : X3.ShapeCasts P4) (h2 : P4.ReducesTo [3] P3) (h3 : 0 < Sc.numel)
    (h4 : Sc.BroadcastsInDim P3 (![] : Fin 0 → Fin P3.rank)) (yn : FVec Ideal X3 .f32) : FVec Ideal P3 .f32 :=
  Host.divf (Host.reduceAdd (shapeCast P4 yn h1) (constant (F := Ideal) Sc .f32 0x00000000#32) h2 h3)
    (broadcastInDim P3 ![] h4 (constant (F := Ideal) Sc .f32 0x40000000#32))

/-! ## The two variances agree on real data -/

/-- The compressed entry of a real number is a real number: |x| + ε is positive. -/
theorem ly_real (r : ℝ) : ∃ s : ℝ, ly (r : EReal) = (s : EReal) := by
  obtain ⟨e, he, hb⟩ := Consts.ofBits_guard_pos
  have habs : max (r : EReal) (-(r : EReal)) = ((max r (-r) : ℝ) : EReal) := by
    rw [← EReal.coe_neg]; exact (EReal.coe_strictMono.monotone.map_max).symm
  refine ⟨Real.log (max r (-r) + e), ?_⟩
  unfold ly
  rw [hb, habs, ← EReal.coe_add, Ideal.log_coe, if_neg]
  have : 0 ≤ max r (-r) := by rcases le_total 0 r with h | h <;> [exact le_max_of_le_left h; exact le_max_of_le_right (by linarith)]
  linarith

/-- For an array of real numbers the two variances of a channel are one number. -/
theorem varOfSquares_eq_varOfDeviations (x : X3.Idx → EReal) (hx : ∀ i, ∃ r : ℝ, x i = (r : EReal)) (ch : Fin 64) :
    varOfSquares x ch = varOfDeviations x ch := by
  have hf : ∀ p : Fin 128 × Fin 8000, ∃ s : ℝ, ly (x (ix3 p.1 ch p.2)) = (s : EReal) := fun p => by
    obtain ⟨r, hr⟩ := hx (ix3 p.1 ch p.2); rw [hr]; exact ly_real r
  have key := var_two_forms (fun p : Fin 128 × Fin 8000 => ly (x (ix3 p.1 ch p.2))) hf (1024000 : ℝ)
    (by simp [Fintype.card_prod]) (by norm_num)
  simp only [Fintype.sum_prod_type] at key
  unfold varOfSquares varOfDeviations mean dsum count
  rw [Consts.ofBits_count]
  exact key.symm

end Cert.LogBn

end
-- ==== Proof.Finite.lean ====
/-
  The precondition read back: every entry of x is a real number.

  The precondition takes |x| < +∞ entry by entry, reduces the answers by "and" over the whole array, does the same
  for the weight and the bias and conjoins the three.  If the result is 1 then every entry of x answered 1, and an
  extended real whose absolute value, the larger of x and -x, is below +∞ is neither +∞ nor -∞.
-/
import proofs.«419528_j10256381903615_3_alg».proof.Pre_finite_inputs
import proofs.«419528_j10256381903615_3_alg».proof.Proof.Gen.Pre_finite_inputs
import proofs.«419528_j10256381903615_3_alg».proof.Proof.Consts
import Idealize.ShloMosaic.Lib.ReduceAll
import Idealize.ShloMosaic.Lib.ValueIdx
import Idealize.ShloMosaic.PureOps.Ideal

noncomputable section

namespace Cert.LogBn.Finite

open Idealize.ShloMosaic Cert.Pre_finite_inputs

instance : Subsingleton S_.Idx := ⟨fun a b => funext fun d => d.elim0⟩

/-- An extended real whose absolute value compares below +∞ is a real number. -/
theorem real_of_abs_lt_top (x : EReal) (h : Ideal.cmp .olt (max x (-x)) (⊤ : EReal) = 1#1) : ∃ r : ℝ, x = (r : EReal) := by
  have hlt : max x (-x) < ⊤ := by
    by_contra hn
    have : Ideal.cmp .olt (max x (-x)) (⊤ : EReal) = 0#1 := by simp [Ideal.cmp, hn]
    rw [this] at h
    exact absurd h (by decide)
  induction x using EReal.rec with
  | bot => exact absurd hlt (by simp)
  | top => exact absurd hlt (by simp)
  | coe r => exact ⟨r, rfl⟩

/-- Under the precondition every entry of the first argument is a real number. -/
theorem x_real (x : FVec Ideal S128x64x8000 .f32) (g b : FVec Ideal S64 .f32)
    (h : Cert.Pre_finite_inputs.fn (F := Ideal) x g b = fun _ => 1#1) (i : S128x64x8000.Idx) : ∃ r : ℝ, x i = (r : EReal) := by
  have h0 := congrFun h ValueIdx.ix0
  dsimp only [Cert.Pre_finite_inputs.fn] at h0
  have h1 := (IntOp.andi_eq_one.1 (IntOp.andi_eq_one.1 h0).1).1
  have h2 := Host.reduce_andi_all _ _ _ _ _ h1 i
  refine real_of_abs_lt_top (x i) ?_
  rw [← Consts.ofBits_inf]
  exact h2

end Cert.LogBn.Finite

end
-- ==== Proof.BlockRead.lean ====
/-
  One block's contribution to a channel's sum.

  A block is four batch rows of 64 channels by 8000 positions.  Its contribution to channel ch is taken in two
  steps: the sum along the position axis, kept as a column of unit width, and then the sum of that column over the
  four batch rows.  At the exact instance both steps are plain finite sums, so entry (ch, 0) of the result is the
  double sum over the four rows and the 8000 positions of the block's entries in channel ch.
-/
import Idealize.ShloMosaic.PureOps
import Idealize.ShloMosaic.PureOps.Ideal
import Idealize.ShloMosaic.PureOps.Ideal.Laws
import Idealize.ShloMosaic.Lib.Pipeline.Value
import Idealize.ShloMosaic.Lib.ValueIdx

open scoped BigOperators

noncomputable section

namespace Cert.LogBn

open Idealize.ShloMosaic Idealize.ShloMosaic.ValueIdx

abbrev B3 : Shape := ⟨3, ![4, 64, 8000]⟩
abbrev B2 : Shape := ⟨2, ![4, 64]⟩
abbrev B21 : Shape := ⟨3, ![4, 64, 1]⟩
abbrev A2 : Shape := ⟨2, ![64, 1]⟩

/-- The sum along the positions, stood up as a column, then summed over the batch rows, read at channel `ch`. -/
theorem block_contrib (v : FVec Ideal B3 .f32) (h1 : B3.Reduces [2] B2) (hφ : FKind.Formats .f32)
    (hacc : (0x00000000#32 : BitVec 32) = FKind.add.neutral .f32 hφ) (hc : B2.ShapeCasts B21)
    (h2 : B21.Reduces [0] A2) (ch : Fin 64) :
    multiReduction .add [0] A2 (shapeCast B21 (multiReduction .add [2] B2 v 0x00000000#32 h1 hφ hacc) hc)
        0x00000000#32 h2 hφ hacc (ix2 ch (0 : Fin 1))
      = ∑ b : Fin 4, ∑ l : Fin 8000, v (ix3 b ch l) := by
  refine (Ideal.multiReduction_add_single _ _ h2 hφ hacc _).trans ?_
  show ∑ b : Fin 4, shapeCast B21 (multiReduction .add [2] B2 v 0x00000000#32 h1 hφ hacc) hc (h2.lift (ix2 ch 0) b) = _
  refine Finset.sum_congr rfl fun b _ => ?_
  refine (shapeCast_apply _ hc _ (ix2 b ch) ?_).trans ?_
  · rw [Shape.rowMajor_val_two, Shape.rowMajor_val_three]
    show b.val * 64 + ch.val = (b.val * 64 + ch.val) * 1 + 0
    omega
  refine (Ideal.multiReduction_add_single v _ h1 hφ hacc _).trans ?_
  show ∑ l : Fin 8000, v (h1.lift (ix2 b ch) l) = _
  refine Finset.sum_congr rfl fun l _ => congrArg v ?_
  funext a
  apply Fin.ext
  match a with
  | ⟨0, _⟩ => rfl
  | ⟨1, _⟩ => rfl
  | ⟨2, _⟩ => rfl

end Cert.LogBn

end
-- ==== Proof.Stats.lean ====
/-
  The first launch: per-channel sums of the compressed entries and of their squares.

  The grid walks the batch axis four rows at a time.  At its first point the body zeroes both accumulators, at every
  point it adds to each the block's contribution — the block's entries log (|x| + ε), or their squares, summed first
  along the position axis and then over the four batch rows.  The accumulators stay in place from one point to the
  next and are written back once, after the last point.  So each result array ends at the sum over all 32 blocks,
  that is over the whole batch and every position, of its channel's entries (squares).
-/
import proofs.«419528_j10256381903615_3_alg».proof.Proof.Gen.KernelIdeal.Frame
import proofs.«419528_j10256381903615_3_alg».proof.Proof.Spec
import proofs.«419528_j10256381903615_3_alg».proof.Proof.BlockRead
import Idealize.ShloMosaic.Lib.Pipeline.Value
import Idealize.ShloMosaic.Lib.Tactic
import Idealize.ShloMosaic.Lib.ValueIdx
import Idealize.ShloMosaic.PureOps.Ideal.Laws

open scoped BigOperators

noncomputable section

open Idealize.ShloMosaic Idealize.ShloMosaic.TcCoe Idealize.SL.Sem Idealize.ShloMosaic.ValueIdx
open Idealize.ShloMosaic.Pipeline (Dat)

namespace Cert.KernelIdeal.Stats

open Cert.KernelIdeal Cert.KernelIdeal.Gen Cert.LogBn

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one point leaves in the accumulators -/

/-- A later point leaves in the first accumulator its old contents plus the block's contribution. -/
theorem out_B_1 (c : Dev nD) (i : grid0.Coords) (a1 : Memref sig .tc .vmem S4x64x8000 .f32) (h1 : a1.IsWhole)
    (a2 : Memref sig .tc .vmem S64x1 .f32) (h2 : a2.IsWhole) (a3 : Memref sig .tc .vmem S64x1 .f32) (h3 : a3.IsWhole)
    (hc : ¬cond0_0 i) (x : Vec F S4x64x8000 .f32) (xo1 xo2 : Vec F S64x1 .f32) :
    out0_B_1 c i a1 h1 a2 h2 a3 h3 hc x xo1 xo2 = k0_pay4 x xo1 := by
  unfold out0_B_1
  rw [View.read_writes_eq_canon _ _ _ (cover0_B_1 c i a1 h1 a2 h2 a3 h3 hc x xo1 xo2)]
  unfold kernelRun0_B
  dsimp only
  sl_unfold_words
  rw [View.canon_unit_zero hz2]
  simp only [View.readAt_eq_ld, h1.read_unread, h2.read_unread, View.ld_unit_zero (S := S4x64x8000) hz3,
    View.ld_unit_zero (S := S64x1) hz2]

/-- The same for the accumulator of the squares. -/
theorem out_B_2 (c : Dev nD) (i : grid0.Coords) (a1 : Memref sig .tc .vmem S4x64x8000 .f32) (h1 : a1.IsWhole)
    (a2 : Memref sig .tc .vmem S64x1 .f32) (h2 : a2.IsWhole) (a3 : Memref sig .tc .vmem S64x1 .f32) (h3 : a3.IsWhole)
    (hc : ¬cond0_0 i) (x : Vec F S4x64x8000 .f32) (xo1 xo2 : Vec F S64x1 .f32) :
    out0_B_2 c i a1 h1 a2 h2 a3 h3 hc x xo1 xo2 = k0_pay5 x xo2 := by
  unfold out0_B_2
  rw [View.read_writes_eq_canon _ _ _ (cover0_B_2 c i a1 h1 a2 h2 a3 h3 hc x xo1 xo2)]
  unfold kernelRun0_B
  dsimp only
  sl_unfold_words
  rw [View.canon_unit_zero hz2]
  simp only [View.readAt_eq_ld, h1.read_unread, h3.read_unread, View.ld_unit_zero (S := S4x64x8000) hz3,
    View.ld_unit_zero (S := S64x1) hz2]

/-- The first point zeroes the first accumulator, reads the zeros back and adds the block's contribution. -/
theorem out_A_1 (c : Dev nD) (i : grid0.Coords) (a1 : Memref sig .tc .vmem S4x64x8000 .f32) (h1 : a1.IsWhole)
    (a2 : Memref sig .tc .vmem S64x1 .f32) (h2 : a2.IsWhole) (a3 : Memref sig .tc .vmem S64x1 .f32) (h3 : a3.IsWhole)
    (hc : cond0_0 i) (x : Vec F S4x64x8000 .f32) :
    out0_A_1 c i a1 h1 a2 h2 a3 h3 hc x = k0_pay4 x (k0_pay1 (F := F)) := by
  unfold out0_A_1
  rw [View.read_writes_eq_canon _ _ _ (cover0_A_1 c i a1 h1 a2 h2 a3 h3 hc x)]
  unfold kernelRun0_A
  dsimp only
  sl_unfold_words
  rw [View.canon_cons_unit_zero (S := S64x1) hz2, View.readCov_unit_zero (S := S64x1) _ hz2]
  simp only [View.readAt_eq_ld, h1.read_unread, View.ld_unit_zero (S := S4x64x8000) hz3,
    View.ld_unit_zero (S := S64x1) hz2]

/-- The same for the accumulator of the squares. -/
theorem out_A_2 (c : Dev nD) (i : grid0.Coords) (a1 : Memref sig .tc .vmem S4x64x8000 .f32) (h1 : a1.IsWhole)
    (a2 : Memref sig .tc .vmem S64x1 .f32) (h2 : a2.IsWhole) (a3 : Memref sig .tc .vmem S64x1 .f32) (h3 : a3.IsWhole)
    (hc : cond0_0 i) (x : Vec F S4x64x8000 .f32) :
    out0_A_2 c i a1 h1 a2 h2 a3 h3 hc x = k0_pay5 x (k0_pay2 (F := F)) := by
  unfold out0_A_2
  rw [View.read_writes_eq_canon _ _ _ (cover0_A_2 c i a1 h1 a2 h2 a3 h3 hc x)]
  unfold kernelRun0_A
  dsimp only
  sl_unfold_words
  rw [View.canon_cons_unit_zero (S := S64x1) hz2, View.readCov_unit_zero (S := S64x1) _ hz2]
  simp only [View.readAt_eq_ld, h1.read_unread, View.ld_unit_zero (S := S4x64x8000) hz3,
    View.ld_unit_zero (S := S64x1) hz2]

/-! ## The accumulators after each point -/

section Acc

variable (V : (c : Dev nD) → (b : Ref sig .tc) → Buf (Elt F) ((c : Thread nD τ).loc b))

/-- The four batch rows the grid's point `t` reads, and the array they are a block of. -/
abbrev xblk (c : Dev nD) (t : Fin cfg0.N) : Vec F S4x64x8000 .f32 := iblk0 V c 0 t
abbrev xarr (c : Dev nD) : Vec F S128x64x8000 .f32 := V c main_arg0

/-- The accumulator of the entries after point `n`: zero plus the first block's contribution, then one more
    block's contribution per point. -/
def acc1 (c : Dev nD) : (n : ℕ) → n < cfg0.N → Vec F S64x1 .f32
  | 0, h => k0_pay4 (xblk V c ⟨0, h⟩) (k0_pay1 (F := F))
  | n + 1, h => k0_pay4 (xblk V c ⟨n + 1, h⟩) (acc1 c n (Nat.lt_of_succ_lt h))

/-- The accumulator of the squares after point `n`. -/
def acc2 (c : Dev nD) : (n : ℕ) → n < cfg0.N → Vec F S64x1 .f32
  | 0, h => k0_pay5 (xblk V c ⟨0, h⟩) (k0_pay2 (F := F))
  | n + 1, h => k0_pay5 (xblk V c ⟨n + 1, h⟩) (acc2 c n (Nat.lt_of_succ_lt h))

/-- What the two staging buffers hold after point `n` are these accumulators: by induction on the point. -/
theorem outsAt_eq (c : Dev nD) : ∀ (n : ℕ) (h : n < cfg0.N), outsAt0 V c n h = (acc1 V c n h, acc2 V c n h)
  | 0, h => by
    refine (outsAt0_A V c ⟨0, h⟩ rfl).trans ?_
    rw [out_A_1, out_A_2]
    rfl
  | n + 1, h => by
    have hN : cfg0.N = 32 := N_0
    have hB : ¬(⟨n + 1, h⟩ : Fin cfg0.N).val % 32 = 0 := by dsimp only; omega
    rw [outsAt0_B V c ⟨n + 1, h⟩ hB, out_B_1, out_B_2]
    show (k0_pay4 _ (outsAt0 V c n _).1, k0_pay5 _ (outsAt0 V c n _).2) = _
    rw [outsAt_eq c n]
    rfl

/-- The last point of the grid. -/
abbrev tLast : Fin cfg0.N := ⟨31, by show 31 < grid0.N; decide⟩

/-- Both result windows sit at block (0, 0) at every point. -/
theorem idx1_zero : ∀ (t : Fin cfg0.N) (a : Fin 2), win0_1.index t a = 0 :=
  (by decide +kernel : ∀ (t : Fin grid0.N) (a : Fin 2), win0_1.index t a = 0)
theorem idx2_zero : ∀ (t : Fin cfg0.N) (a : Fin 2), win0_2.index t a = 0 :=
  (by decide +kernel : ∀ (t : Fin grid0.N) (a : Fin 2), win0_2.index t a = 0)

/-- The one write-back of the first result, after the last point, writes the accumulator: its block is the array. -/
theorem flushed1_eq (c : Dev nD) (t : Fin cfg0.N) (hf : (cfg0.win 1).flush t = true) :
    (dat0 V c).flushed 1 t = ((cfg0.win 1).blk t).view.read (Elt F) (acc1 V c 31 tLast.isLt) := by
  have hN : cfg0.N = 32 := N_0
  have h31 : t.val = 31 := by have := (flush0_1 t).mp hf; have := t.isLt; omega
  obtain ⟨n, hn⟩ := t
  dsimp only at h31
  subst h31
  show (cfg0.win 1).cut (grid0.coords _) ((dat0 V c).after 1 _) = _
  rw [after0_1, outsAt_eq]
  have hz' : (fun a => win0_1.index ⟨31, hn⟩ a * main_v0_0.ty.shape.size a) = fun _ => 0 :=
    funext fun a => by rw [idx1_zero]; exact Nat.zero_mul _
  exact (Memref.read_access_unit_zero (Elt F) main_v0_0 hz' (fun a => by rw [congrFun hz' a]; simp) _).symm

theorem flushed2_eq (c : Dev nD) (t : Fin cfg0.N) (hf : (cfg0.win 2).flush t = true) :
    (dat0 V c).flushed 2 t = ((cfg0.win 2).blk t).view.read (Elt F) (acc2 V c 31 tLast.isLt) := by
  have hN : cfg0.N = 32 := N_0
  have h31 : t.val = 31 := by have := (flush0_2 t).mp hf; have := t.isLt; omega
  obtain ⟨n, hn⟩ := t
  dsimp only at h31
  subst h31
  show (cfg0.win 2).cut (grid0.coords _) ((dat0 V c).after 2 _) = _
  rw [after0_2, outsAt_eq]
  have hz' : (fun a => win0_2.index ⟨31, hn⟩ a * main_v0_1.ty.shape.size a) = fun _ => 0 :=
    funext fun a => by rw [idx2_zero]; exact Nat.zero_mul _
  exact (Memref.read_access_unit_zero (Elt F) main_v0_1 hz' (fun a => by rw [congrFun hz' a]; simp) _).symm

/-- So the first result array ends at the accumulator after the last point: that point's block covers it. -/
theorem final1 (c : Dev nD) : (dat0 V c).arrAt 1 cfg0.N = acc1 V c 31 tLast.isLt :=
  (dat0 V c).arrAt_eq_of_cover 1 (acc1 V c 31 tLast.isLt) (flushed1_eq V c) fun i =>
    ⟨tLast, (flush0_1 tLast).mpr rfl, by
      show i ∈ ((View.whole main_v0_0).slice (win0_1.rect tLast)).set
      rw [View.set_slice_whole, Rect.mem_set_unit]
      intro a
      have h0 : (i 0 : Nat) < 64 := (i 0).isLt
      have h1 : (i 1 : Nat) < 1 := (i 1).isLt
      match a with
      | ⟨0, _⟩ => show win0_1.index tLast 0 * win0_1.size 0 ≤ (i 0 : Nat) ∧ (i 0 : Nat) < win0_1.index tLast 0 * win0_1.size 0 + win0_1.xsize (grid0.coords tLast) 0
                  rw [idx1_zero, show win0_1.xsize (grid0.coords tLast) 0 = 64 from by decide +kernel]; omega
      | ⟨1, _⟩ => show win0_1.index tLast 1 * win0_1.size 1 ≤ (i 1 : Nat) ∧ (i 1 : Nat) < win0_1.index tLast 1 * win0_1.size 1 + win0_1.xsize (grid0.coords tLast) 1
                  rw [idx1_zero, show win0_1.xsize (grid0.coords tLast) 1 = 1 from by decide +kernel]; omega⟩

theorem final2 (c : Dev nD) : (dat0 V c).arrAt 2 cfg0.N = acc2 V c 31 tLast.isLt :=
  (dat0 V c).arrAt_eq_of_cover 2 (acc2 V c 31 tLast.isLt) (flushed2_eq V c) fun i =>
    ⟨tLast, (flush0_2 tLast).mpr rfl, by
      show i ∈ ((View.whole main_v0_1).slice (win0_2.rect tLast)).set
      rw [View.set_slice_whole, Rect.mem_set_unit]
      intro a
      have h0 : (i 0 : Nat) < 64 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [idx2_zero, show win0_2.xsize (grid0.coords tLast) 0 = 64 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [idx2_zero, show win0_2.xsize (grid0.coords tLast) 1 = 1 from by decide +kernel]; omega⟩

/-- The input window's block index at point `t` is (t, 0, 0). -/
theorem idx0_facts : ∀ t : Fin cfg0.N, win0_0.index t (0 : Fin 3) = t.val ∧ win0_0.index t (1 : Fin 3) = 0
    ∧ win0_0.index t (2 : Fin 3) = 0 :=
  (by decide +kernel : ∀ t : Fin grid0.N, win0_0.index t (0 : Fin 3) = t.val ∧ win0_0.index t (1 : Fin 3) = 0
    ∧ win0_0.index t (2 : Fin 3) = 0)

/-- Row `b'` of point `t`'s block is batch row 4 t + b' of the array. -/
theorem xblk_apply (c : Dev nD) (t : Fin cfg0.N) (b' : Fin 4) (ch : Fin 64) (l : Fin 8000) (p : Fin 128)
    (hp : p.val = 4 * t.val + b'.val) : xblk V c t (ix3 b' ch l) = xarr V c (ix3 p ch l) := by
  obtain ⟨e0, e1, e2⟩ := idx0_facts t
  show iblk0 V c 0 t (ix3 b' ch l) = V c main_arg0 (ix3 p ch l)
  unfold iblk0
  rw [View.read_apply]
  show V c main_arg0 _ = V c main_arg0 _
  congr 1
  funext a
  apply Fin.ext
  match a with
  | ⟨0, _⟩ => show win0_0.index t (0 : Fin 3) * 4 + 1 * b'.val = p.val; rw [e0, hp]; omega
  | ⟨1, _⟩ => show win0_0.index t (1 : Fin 3) * 64 + 1 * ch.val = ch.val; rw [e1]; omega
  | ⟨2, _⟩ => show win0_0.index t (2 : Fin 3) * 8000 + 1 * l.val = l.val; rw [e2]; omega

end Acc

/-! ## The accumulators read at a channel, at the exact instance -/

section Read

variable (V : (c : Dev nD) → (b : Ref sig .tc) → Buf (Elt Ideal) ((c : Thread nD τ).loc b))

/-- One point's update of the first accumulator, at channel `ch`: the old entry plus the block's entries
    log (|x| + ε) summed over its four rows and all positions. -/
theorem pay4_apply (x : Vec Ideal S4x64x8000 .f32) (acc : Vec Ideal S64x1 .f32) (ch : Fin 64) :
    k0_pay4 (F := Ideal) x acc (ix2 ch (0 : Fin 1))
      = acc (ix2 ch (0 : Fin 1)) + ∑ b : Fin 4, ∑ l : Fin 8000, ly (x (ix3 b ch l)) := by
  unfold k0_pay4
  dsimp only
  refine Eq.trans (addf_apply _ _ _) ?_
  refine congrArg₂ (· + ·) (congrFun (shapeCast_self acc _) _) ?_
  exact block_contrib (k0_pay3 x) _ _ _ _ _ ch

/-- The same for the squares. -/
theorem pay5_apply (x : Vec Ideal S4x64x8000 .f32) (acc : Vec Ideal S64x1 .f32) (ch : Fin 64) :
    k0_pay5 (F := Ideal) x acc (ix2 ch (0 : Fin 1))
      = acc (ix2 ch (0 : Fin 1)) + ∑ b : Fin 4, ∑ l : Fin 8000, ly (x (ix3 b ch l)) * ly (x (ix3 b ch l)) := by
  unfold k0_pay5
  dsimp only
  refine Eq.trans (addf_apply _ _ _) ?_
  refine congrArg₂ (· + ·) (congrFun (shapeCast_self acc _) _) ?_
  exact block_contrib (mulf (k0_pay3 x) (k0_pay3 x)) _ _ _ _ _ ch

/-- Batch row `p`'s contribution to channel `ch` of a pointwise function `φ` of the array (zero past the array). -/
def rowSum (φ : EReal → EReal) (c : Dev nD) (ch : Fin 64) (p : ℕ) : EReal :=
  if hp : p < 128 then ∑ l : Fin 8000, φ (xarr V c (ix3 (⟨p, hp⟩ : Fin 128) ch l)) else 0

/-- The block of point `n` contributes batch rows 4 n … 4 n + 3. -/
theorem blk_rows (φ : EReal → EReal) (c : Dev nD) (ch : Fin 64) (n : ℕ) (h : n < cfg0.N) :
    ∑ b : Fin 4, ∑ l : Fin 8000, φ (xblk V c ⟨n, h⟩ (ix3 b ch l))
      = ∑ x ∈ Finset.range 4, rowSum V φ c ch (4 * n + x) := by
  rw [← Fin.sum_univ_eq_sum_range (fun x => rowSum V φ c ch (4 * n + x)) 4]
  refine Finset.sum_congr rfl fun b _ => ?_
  have hN : cfg0.N = 32 := N_0
  have hb := b.isLt
  have hp : 4 * n + b.val < 128 := by omega
  unfold rowSum
  rw [dif_pos hp]
  refine Finset.sum_congr rfl fun l _ => ?_
  rw [xblk_apply V c ⟨n, h⟩ b ch l ⟨4 * n + b.val, hp⟩ rfl]

/-- An accumulator that starts at zero plus the first block's contribution and gains one block's contribution per
    point holds, after point `n`, the contributions of batch rows 0 … 4 (n + 1) - 1. -/
theorem acc_sum (φ : EReal → EReal) (c : Dev nD) (ch : Fin 64) (A : (n : ℕ) → n < cfg0.N → Vec Ideal S64x1 .f32)
    (h0 : ∀ h, A 0 h (ix2 ch (0 : Fin 1)) = 0 + ∑ b : Fin 4, ∑ l : Fin 8000, φ (xblk V c ⟨0, h⟩ (ix3 b ch l)))
    (hs : ∀ n (h : n + 1 < cfg0.N), A (n + 1) h (ix2 ch (0 : Fin 1))
      = A n (Nat.lt_of_succ_lt h) (ix2 ch (0 : Fin 1)) + ∑ b : Fin 4, ∑ l : Fin 8000, φ (xblk V c ⟨n + 1, h⟩ (ix3 b ch l))) :
    ∀ n (h : n < cfg0.N), A n h (ix2 ch (0 : Fin 1)) = ∑ p ∈ Finset.range (4 * (n + 1)), rowSum V φ c ch p
  | 0, h => by
    rw [h0 h, zero_add, blk_rows V φ c ch 0 h]
    simp only [Nat.mul_zero, Nat.zero_add, Nat.mul_one]
  | n + 1, h => by
    rw [hs n h, acc_sum φ c ch A h0 hs n (Nat.lt_of_succ_lt h), blk_rows V φ c ch (n + 1) h,
      show 4 * (n + 1 + 1) = 4 * (n + 1) + 4 from by ring, Finset.sum_range_add]

/-- After all 32 points: the sum over the whole batch. -/
theorem acc_sum_last (φ : EReal → EReal) (c : Dev nD) (ch : Fin 64) (A : (n : ℕ) → n < cfg0.N → Vec Ideal S64x1 .f32)
    (h0 : ∀ h, A 0 h (ix2 ch (0 : Fin 1)) = 0 + ∑ b : Fin 4, ∑ l : Fin 8000, φ (xblk V c ⟨0, h⟩ (ix3 b ch l)))
    (hs : ∀ n (h : n + 1 < cfg0.N), A (n + 1) h (ix2 ch (0 : Fin 1))
      = A n (Nat.lt_of_succ_lt h) (ix2 ch (0 : Fin 1)) + ∑ b : Fin 4, ∑ l : Fin 8000, φ (xblk V c ⟨n + 1, h⟩ (ix3 b ch l))) :
    A 31 tLast.isLt (ix2 ch (0 : Fin 1)) = dsum fun b l => φ (xarr V c (ix3 b ch l)) := by
  rw [acc_sum V φ c ch A h0 hs 31 tLast.isLt]
  show ∑ p ∈ Finset.range 128, rowSum V φ c ch p = _
  unfold dsum
  rw [← Fin.sum_univ_eq_sum_range (fun p => rowSum V φ c ch p) 128]
  refine Finset.sum_congr rfl fun p _ => ?_
  unfold rowSum
  rw [dif_pos p.isLt]

theorem k0_pay1_apply (i : S64x1.Idx) : k0_pay1 (F := Ideal) i = 0 := Ideal.ofBits_zero_f32
theorem k0_pay2_apply (i : S64x1.Idx) : k0_pay2 (F := Ideal) i = 0 := Ideal.ofBits_zero_f32

/-- The first result array at channel `ch`: the sum over batch and position of the compressed entries. -/
theorem sum_apply (c : Dev nD) (ch : Fin 64) :
    (dat0 V c).arrAt 1 cfg0.N (ix2 ch (0 : Fin 1)) = dsum fun b l => ly (xarr V c (ix3 b ch l)) := by
  rw [final1 V c]
  refine acc_sum_last V ly c ch (acc1 V c) (fun h => ?_) (fun n h => ?_)
  · show k0_pay4 (F := Ideal) (xblk V c ⟨0, h⟩) (k0_pay1 (F := Ideal)) (ix2 ch (0 : Fin 1)) = _
    rw [pay4_apply, k0_pay1_apply]
  · show k0_pay4 (F := Ideal) (xblk V c ⟨n + 1, h⟩) (acc1 V c n (Nat.lt_of_succ_lt h)) (ix2 ch (0 : Fin 1)) = _
    rw [pay4_apply]

/-- The second result array at channel `ch`: the sum of the squares. -/
theorem sumsq_apply (c : Dev nD) (ch : Fin 64) :
    (dat0 V c).arrAt 2 cfg0.N (ix2 ch (0 : Fin 1)) = dsum fun b l => ly (xarr V c (ix3 b ch l)) * ly (xarr V c (ix3 b ch l)) := by
  rw [final2 V c]
  refine acc_sum_last V (fun y => ly y * ly y) c ch (acc2 V c) (fun h => ?_) (fun n h => ?_)
  · show k0_pay5 (F := Ideal) (xblk V c ⟨0, h⟩) (k0_pay2 (F := Ideal)) (ix2 ch (0 : Fin 1)) = _
    rw [pay5_apply, k0_pay2_apply]
  · show k0_pay5 (F := Ideal) (xblk V c ⟨n + 1, h⟩) (acc2 V c n (Nat.lt_of_succ_lt h)) (ix2 ch (0 : Fin 1)) = _
    rw [pay5_apply]

end Read

end Cert.KernelIdeal.Stats

end
-- ==== Proof.Norm.lean ====
/-
  The second launch: every entry normalised with its channel's statistics.

  The grid walks the batch axis two rows at a time.  Each point reads its block of x and the four per-channel columns
  (mean, inverse deviation, weight, bias), stretches the columns over the block, and stores
  (log (|x| + ε) - mean) · inverse deviation · weight + bias.  The blocks tile the result array and no point revisits
  one, so the result array ends at that function of the arrays the launch found, entry by entry.
-/
import proofs.«419528_j10256381903615_3_alg».proof.Proof.Gen.KernelIdeal.Frame
import proofs.«419528_j10256381903615_3_alg».proof.Proof.Spec
import Idealize.ShloMosaic.Lib.Pipeline.Value
import Idealize.ShloMosaic.Lib.Tactic
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Norm

open Cert.KernelIdeal Cert.KernelIdeal.Gen Cert.LogBn

theorem hz3 : (![0, 0, 0] : Fin 3 → Nat) = fun _ => 0 := funext fun a => by fin_cases a <;> rfl

/-- Two arrays of rank three are equal when they agree at every triple of coordinates. -/
theorem ext_ix3 {α : Type} {n0 n1 n2 : ℕ} (f g : (⟨3, ![n0, n1, n2]⟩ : Shape).Idx → α)
    (h : ∀ (a : Fin n0) (b : Fin n1) (c : Fin n2), f (ix3 a b c) = g (ix3 a b c)) : f = g :=
  funext fun j => by rw [eq_ix3 j]; exact h _ _ _

/-- A per-channel column stretched over a block reads, at (b', ch, l), the column's entry ch. -/
theorem column_apply (v : Vec Ideal S1x64x1 .f32) (b' : Fin 2) (ch : Fin 64) (l : Fin 8000) :
    broadcastTo S2x64x8000 (shapeCast S1x64x1 v shapeCasts_S1x64x1_S1x64x1) broadcasts_S1x64x1_S2x64x8000 (ix3 b' ch l)
      = v (ix3 (0 : Fin 1) ch (0 : Fin 1)) := by
  rw [shapeCast_self]
  refine broadcastTo_apply v broadcasts_S1x64x1_S2x64x8000 _ (ix3 (0 : Fin 1) ch (0 : Fin 1)) fun a => ?_
  match a with
  | ⟨0, _⟩ => rfl
  | ⟨1, _⟩ => show ch.val = if (64 : Nat) = 1 then 0 else ch.val; rw [if_neg (by decide)]
  | ⟨2, _⟩ => rfl

/-- The body's stored value at (b', ch, l): the block's entry compressed, centred, scaled twice and shifted by the
    four columns' entries of channel ch. -/
theorem pay1_apply (x0 : Vec Ideal S2x64x8000 .f32) (x1 x2 x3 x4 : Vec Ideal S1x64x1 .f32) (b' : Fin 2) (ch : Fin 64)
    (l : Fin 8000) :
    k1_pay1 (F := Ideal) x0 x1 x2 x3 x4 (ix3 b' ch l)
      = (ly (x0 (ix3 b' ch l)) - x1 (ix3 (0 : Fin 1) ch (0 : Fin 1))) * x2 (ix3 (0 : Fin 1) ch (0 : Fin 1))
          * x3 (ix3 (0 : Fin 1) ch (0 : Fin 1)) + x4 (ix3 (0 : Fin 1) ch (0 : Fin 1)) := by
  unfold k1_pay1
  refine Eq.trans (addf_apply _ _ _) ?_
  refine congrArg₂ (· + ·) ?_ (column_apply x4 b' ch l)
  refine Eq.trans (mulf_apply _ _ _) ?_
  refine congrArg₂ (· * ·) ?_ (column_apply x3 b' ch l)
  refine Eq.trans (mulf_apply _ _ _) ?_
  refine congrArg₂ (· * ·) ?_ (column_apply x2 b' ch l)
  refine Eq.trans (subf_apply _ _ _) ?_
  exact congrArg₂ (· - ·) rfl (column_apply x1 b' ch l)

section Region

variable (V : (c : Dev nD) → (b : Ref sig .tc) → Buf (Elt Ideal) ((c : Thread nD τ).loc b))

/-- What the result array ends holding, as a function of the arrays the launch found. -/
def normOf (c : Dev nD) : Vec Ideal S128x64x8000 .f32 := fun i =>
  (ly (V c main_arg0 i) - V c main_v10 (ix3 (0 : Fin 1) (i 1 : Fin 64) (0 : Fin 1)))
      * V c main_v11 (ix3 (0 : Fin 1) (i 1 : Fin 64) (0 : Fin 1))
      * V c main_v12 (ix3 (0 : Fin 1) (i 1 : Fin 64) (0 : Fin 1))
    + V c main_v13 (ix3 (0 : Fin 1) (i 1 : Fin 64) (0 : Fin 1))

/-- The block indices at point `t`: the input and the result at (t, 0, 0), the four columns at (0, 0, 0). -/
theorem idx_facts : ∀ t : Fin cfg1.N,
    (win1_0.index t (0 : Fin 3) = t.val ∧ win1_0.index t (1 : Fin 3) = 0 ∧ win1_0.index t (2 : Fin 3) = 0)
    ∧ (win1_5.index t (0 : Fin 3) = t.val ∧ win1_5.index t (1 : Fin 3) = 0 ∧ win1_5.index t (2 : Fin 3) = 0)
    ∧ (∀ a : Fin 3, win1_1.index t a = 0) ∧ (∀ a : Fin 3, win1_2.index t a = 0)
    ∧ (∀ a : Fin 3, win1_3.index t a = 0) ∧ (∀ a : Fin 3, win1_4.index t a = 0) :=
  (by decide +kernel : ∀ t : Fin grid1.N,
    (win1_0.index t (0 : Fin 3) = t.val ∧ win1_0.index t (1 : Fin 3) = 0 ∧ win1_0.index t (2 : Fin 3) = 0)
    ∧ (win1_5.index t (0 : Fin 3) = t.val ∧ win1_5.index t (1 : Fin 3) = 0 ∧ win1_5.index t (2 : Fin 3) = 0)
    ∧ (∀ a : Fin 3, win1_1.index t a = 0) ∧ (∀ a : Fin 3, win1_2.index t a = 0)
    ∧ (∀ a : Fin 3, win1_3.index t a = 0) ∧ (∀ a : Fin 3, win1_4.index t a = 0))

/-- Row b' of point `t`'s input block is batch row 2 t + b' of x. -/
theorem xblk_apply (c : Dev nD) (t : Fin cfg1.N) (b' : Fin 2) (ch : Fin 64) (l : Fin 8000) (p : Fin 128)
    (hp : p.val = 2 * t.val + b'.val) :
    (iblk1 V c 0 t : Vec Ideal S2x64x8000 .f32) (ix3 b' ch l) = V c main_arg0 (ix3 p ch l) := by
  obtain ⟨⟨e0, e1, e2⟩, -⟩ := idx_facts t
  unfold iblk1
  rw [View.read_apply]
  show V c main_arg0 _ = V c main_arg0 _
  congr 1
  funext a
  apply Fin.ext
  match a with
  | ⟨0, _⟩ => show win1_0.index t (0 : Fin 3) * 2 + 1 * b'.val = p.val; rw [e0, hp]; omega
  | ⟨1, _⟩ => show win1_0.index t (1 : Fin 3) * 64 + 1 * ch.val = ch.val; rw [e1]; omega
  | ⟨2, _⟩ => show win1_0.index t (2 : Fin 3) * 8000 + 1 * l.val = l.val; rw [e2]; omega

/-- The same of the result window: a block of an array, read at (b', ch, l), is the array at (2 t + b', ch, l). -/
theorem oblk_apply (G : Vec Ideal S128x64x8000 .f32) (t : Fin cfg1.N) (b' : Fin 2) (ch : Fin 64) (l : Fin 8000)
    (p : Fin 128) (hp : p.val = 2 * t.val + b'.val) :
    (((cfg1.win 5).blk t).view.read (Elt Ideal) G : Vec Ideal S2x64x8000 .f32) (ix3 b' ch l) = G (ix3 p ch l) := by
  obtain ⟨-, ⟨e0, e1, e2⟩, -⟩ := idx_facts t
  rw [View.read_apply]
  show G _ = G _
  congr 1
  funext a
  apply Fin.ext
  match a with
  | ⟨0, _⟩ => show win1_5.index t (0 : Fin 3) * 2 + 1 * b'.val = p.val; rw [e0, hp]; omega
  | ⟨1, _⟩ => show win1_5.index t (1 : Fin 3) * 64 + 1 * ch.val = ch.val; rw [e1]; omega
  | ⟨2, _⟩ => show win1_5.index t (2 : Fin 3) * 8000 + 1 * l.val = l.val; rw [e2]; omega

/-- Each column window's block is the whole column. -/
theorem col1_apply (c : Dev nD) (t : Fin cfg1.N) (ch : Fin 64) :
    (iblk1 V c 1 t : Vec Ideal S1x64x1 .f32) (ix3 (0 : Fin 1) ch (0 : Fin 1)) = V c main_v10 (ix3 (0 : Fin 1) ch (0 : Fin 1)) := by
  obtain ⟨-, -, e, -⟩ := idx_facts t
  unfold iblk1
  rw [View.read_apply]
  show V c main_v10 _ = V c main_v10 _
  congr 1
  funext a
  apply Fin.ext
  match a with
  | ⟨0, _⟩ => show win1_1.index t (0 : Fin 3) * 1 + 1 * 0 = 0; rw [e]
  | ⟨1, _⟩ => show win1_1.index t (1 : Fin 3) * 64 + 1 * ch.val = ch.val; rw [e]; omega
  | ⟨2, _⟩ => show win1_1.index t (2 : Fin 3) * 1 + 1 * 0 = 0; rw [e]
theorem col2_apply (c : Dev nD) (t : Fin cfg1.N) (ch : Fin 64) :
    (iblk1 V c 2 t : Vec Ideal S1x64x1 .f32) (ix3 (0 : Fin 1) ch (0 : Fin 1)) = V c main_v11 (ix3 (0 : Fin 1) ch (0 : Fin 1)) := by
  obtain ⟨-, -, -, e, -⟩ := idx_facts t
  unfold iblk1
  rw [View.read_apply]
  show V c main_v11 _ = V c main_v11 _
  congr 1
  funext a
  apply Fin.ext
  match a with
  | ⟨0, _⟩ => show win1_2.index t (0 : Fin 3) * 1 + 1 * 0 = 0; rw [e]
  | ⟨1, _⟩ => show win1_2.index t (1 : Fin 3) * 64 + 1 * ch.val = ch.val; rw [e]; omega
  | ⟨2, _⟩ => show win1_2.index t (2 : Fin 3) * 1 + 1 * 0 = 0; rw [e]
theorem col3_apply (c : Dev nD) (t : Fin cfg1.N) (ch : Fin 64) :
    (iblk1 V c 3 t : Vec Ideal S1x64x1 .f32) (ix3 (0 : Fin 1) ch (0 : Fin 1)) = V c main_v12 (ix3 (0 : Fin 1) ch (0 : Fin 1)) := by
  obtain ⟨-, -, -, -, e, -⟩ := idx_facts t
  unfold iblk1
  rw [View.read_apply]
  show V c main_v12 _ = V c main_v12 _
  congr 1
  funext a
  apply Fin.ext
  match a with
  | ⟨0, _⟩ => show win1_3.index t (0 : Fin 3) * 1 + 1 * 0 = 0; rw [e]
  | ⟨1, _⟩ => show win1_3.index t (1 : Fin 3) * 64 + 1 * ch.val = ch.val; rw [e]; omega
  | ⟨2, _⟩ => show win1_3.index t (2 : Fin 3) * 1 + 1 * 0 = 0; rw [e]
theorem col4_apply (c : Dev nD) (t : Fin cfg1.N) (ch : Fin 64) :
    (iblk1 V c 4 t : Vec Ideal S1x64x1 .f32) (ix3 (0 : Fin 1) ch (0 : Fin 1)) = V c main_v13 (ix3 (0 : Fin 1) ch (0 : Fin 1)) := by
  obtain ⟨-, -, -, -, -, e⟩ := idx_facts t
  unfold iblk1
  rw [View.read_apply]
  show V c main_v13 _ = V c main_v13 _
  congr 1
  funext a
  apply Fin.ext
  match a with
  | ⟨0, _⟩ => show win1_4.index t (0 : Fin 3) * 1 + 1 * 0 = 0; rw [e]
  | ⟨1, _⟩ => show win1_4.index t (1 : Fin 3) * 64 + 1 * ch.val = ch.val; rw [e]; omega
  | ⟨2, _⟩ => show win1_4.index t (2 : Fin 3) * 1 + 1 * 0 = 0; rw [e]

/-- What point `t` writes back is its block of `normOf`. -/
theorem flushed5_eq (c : Dev nD) (t : Fin cfg1.N) :
    (dat1 V c).flushed 5 t = ((cfg1.win 5).blk t).view.read (Elt Ideal) (normOf V c) := by
  show (cfg1.win 5).cut (grid1.coords t) ((dat1 V c).after 5 t) = _
  rw [after1_5]
  unfold out1_5
  rw [View.canon_unit_zero hz3]
  simp only [View.ld_unit_zero (S := S2x64x8000) hz3, View.ld_unit_zero (S := S1x64x1) hz3]
  refine ext_ix3 _ _ fun b' ch l => ?_
  have hN : cfg1.N = 64 := N_1
  have ht := t.isLt
  have hb := b'.isLt
  refine (pay1_apply (iblk1 V c 0 t) (iblk1 V c 1 t) (iblk1 V c 2 t) (iblk1 V c 3 t) (iblk1 V c 4 t) b' ch l).trans ?_
  rw [xblk_apply V c t b' ch l ⟨2 * t.val + b'.val, by omega⟩ rfl, col1_apply V c t ch, col2_apply V c t ch,
    col3_apply V c t ch, col4_apply V c t ch,
    oblk_apply (normOf V c) t b' ch l ⟨2 * t.val + b'.val, by omega⟩ rfl]
  rfl

/-- An index of the array is in point `t`'s block iff each coordinate is in the block's range on its axis. -/
theorem mem_blk5 (t : Fin cfg1.N) (i : S128x64x8000.Idx) :
    i ∈ ((cfg1.win 5).blk t).view.set ↔ ∀ a : Fin 3, win1_5.index t a * S2x64x8000.size a ≤ (i a).val
      ∧ (i a).val < win1_5.index t a * S2x64x8000.size a + S2x64x8000.size a := by
  show i ∈ ((View.whole main_v14).slice (win1_5.rect t)).set ↔ _
  rw [View.set_slice_whole, Rect.mem_set_unit]
  exact Iff.rfl

/-- The result array after the launch. -/
theorem final5 (c : Dev nD) : (dat1 V c).arrAt 5 cfg1.N = normOf V c :=
  (dat1 V c).arrAt_eq_of_cover 5 (normOf V c) (fun t _ => flushed5_eq V c t) fun i => by
    have hN : cfg1.N = 64 := N_1
    have h0 : (i 0).val < 128 := (i 0).isLt
    have h1 : (i 1).val < 64 := (i 1).isLt
    have h2 : (i 2).val < 8000 := (i 2).isLt
    refine ⟨⟨(i 0).val / 2, by omega⟩, flush1_5 _, ?_⟩
    obtain ⟨-, ⟨e0, e1, e2⟩, -⟩ := idx_facts ⟨(i 0).val / 2, by omega⟩
    rw [mem_blk5]
    intro a
    match a with
    | ⟨0, _⟩ => show win1_5.index _ (0 : Fin 3) * 2 ≤ (i 0).val ∧ (i 0).val < win1_5.index _ (0 : Fin 3) * 2 + 2
                rw [e0]; dsimp only; omega
    | ⟨1, _⟩ => show win1_5.index _ (1 : Fin 3) * 64 ≤ (i 1).val ∧ (i 1).val < win1_5.index _ (1 : Fin 3) * 64 + 64
                rw [e1]; omega
    | ⟨2, _⟩ => show win1_5.index _ (2 : Fin 3) * 8000 ≤ (i 2).val ∧ (i 2).val < win1_5.index _ (2 : Fin 3) * 8000 + 8000
                rw [e2]; omega

end Region

end Cert.KernelIdeal.Norm

end
-- ==== Proof.KernelValue.lean ====
/-
  The kernel's program as a function of its arguments.

  Between the two launches the host divides the two sums by the count N to get each channel's mean μ and mean of
  squares, takes the variance as their difference E[y²] - μ², adds the guard and takes the inverse square root, and
  stands the mean, that inverse deviation, the weight and the bias up as columns for the second launch.  After it
  the host averages neighbouring pairs.  So the program's result is the pool of the array normalised with the
  variance taken as the mean of the squares less the square of the mean.
-/
import proofs.«419528_j10256381903615_3_alg».proof.Proof.RunNamed
import proofs.«419528_j10256381903615_3_alg».proof.Proof.Stats
import proofs.«419528_j10256381903615_3_alg».proof.Proof.Norm
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.LogBn Idealize.ShloMosaic.StableHlo

variable (m : (ℓ : Loc nD τ sig) → Buf (Elt Ideal) ℓ) (ρ : Dev nD → PrngReg)

/-- The argument arrays as launched. -/
abbrev xArg (c : Dev nD) : Vec Ideal S128x64x8000 .f32 := m ((c : Thread nD τ).loc main_arg0)
abbrev gArg (c : Dev nD) : Vec Ideal S64 .f32 := m ((c : Thread nD τ).loc main_arg1)
abbrev bArg (c : Dev nD) : Vec Ideal S64 .f32 := m ((c : Thread nD τ).loc main_arg2)

/-! ## What the second launch finds -/

/-- x is untouched by the first launch and by the host operations after it. -/
theorem V2_arg0 (c : Dev nD) : V2 m ρ c main_arg0 = xArg m c := by
  show StableHlo.after hostOps1 (W1 m ρ c) (Proc.devRef .tc main_arg0) = _
  after_results
  exact (W1_arr m ρ c 0).trans (((dat0 (V0 m ρ) c).arrAt_in 0 rfl _).trans (A_eq0 (V0 m ρ) c 0))

/-- The mean's column: the first launch's first result divided by the count, stood up. -/
theorem V2_v10 (c : Dev nD) : (V2 m ρ c main_v10 : Vec Ideal S1x64x1 .f32)
    = shapeCast S1x64x1 (Host.divf (F := Ideal) (W1 m ρ c (Proc.devRef .tc main_v0_0))
        (broadcastInDim S64x1 ![] bcast_S_S64x1 (constant (F := Ideal) S_ .f32 0x497A0000#32))) shapeCasts_S64x1_S1x64x1 := by
  show StableHlo.after hostOps1 (W1 m ρ c) (Proc.devRef .tc main_v10) = _
  after_results
  rfl

/-- The inverse deviation's column. -/
theorem V2_v11 (c : Dev nD) : (V2 m ρ c main_v11 : Vec Ideal S1x64x1 .f32)
    = shapeCast S1x64x1 (Host.rsqrt (F := Ideal) (addf (subf
        (Host.divf (F := Ideal) (W1 m ρ c (Proc.devRef .tc main_v0_1))
          (broadcastInDim S64x1 ![] bcast_S_S64x1 (constant (F := Ideal) S_ .f32 0x497A0000#32)))
        (mulf (Host.divf (F := Ideal) (W1 m ρ c (Proc.devRef .tc main_v0_0))
            (broadcastInDim S64x1 ![] bcast_S_S64x1 (constant (F := Ideal) S_ .f32 0x497A0000#32)))
          (Host.divf (F := Ideal) (W1 m ρ c (Proc.devRef .tc main_v0_0))
            (broadcastInDim S64x1 ![] bcast_S_S64x1 (constant (F := Ideal) S_ .f32 0x497A0000#32)))))
        (broadcastInDim S64x1 ![] bcast_S_S64x1 (constant (F := Ideal) S_ .f32 0x3727C5AC#32)))) shapeCasts_S64x1_S1x64x1 := by
  show StableHlo.after hostOps1 (W1 m ρ c) (Proc.devRef .tc main_v11) = _
  after_results
  rfl

/-- The weight's and the bias's columns: the vectors stood up. -/
theorem V2_v12 (c : Dev nD) : (V2 m ρ c main_v12 : Vec Ideal S1x64x1 .f32)
    = shapeCast S1x64x1 (W1 m ρ c (Proc.devRef .tc main_arg1)) shapeCasts_S64_S1x64x1 := by
  show StableHlo.after hostOps1 (W1 m ρ c) (Proc.devRef .tc main_v12) = _
  after_results
  rfl
theorem V2_v13 (c : Dev nD) : (V2 m ρ c main_v13 : Vec Ideal S1x64x1 .f32)
    = shapeCast S1x64x1 (W1 m ρ c (Proc.devRef .tc main_arg2)) shapeCasts_S64_S1x64x1 := by
  show StableHlo.after hostOps1 (W1 m ρ c) (Proc.devRef .tc main_v13) = _
  after_results
  rfl

/-- The weight and the bias are no array of the first launch. -/
theorem W1_arg1 (c : Dev nD) : W1 m ρ c (Proc.devRef .tc main_arg1) = gArg m c := W1_of_ne m ρ c main_arg1 (by decide)
theorem W1_arg2 (c : Dev nD) : W1 m ρ c (Proc.devRef .tc main_arg2) = bArg m c := W1_of_ne m ρ c main_arg2 (by decide)

/-- A column `[64, 1]` stood up as `[1, 64, 1]`, and a vector `[64]` likewise, read at channel ch. -/
theorem column_of_column (v : Vec Ideal S64x1 .f32) (ch : Fin 64) :
    shapeCast S1x64x1 v shapeCasts_S64x1_S1x64x1 (ix3 (0 : Fin 1) ch (0 : Fin 1)) = v (ix2 ch (0 : Fin 1)) :=
  shapeCast_apply v shapeCasts_S64x1_S1x64x1 _ _ (by
    rw [Shape.rowMajor_val_two, Shape.rowMajor_val_three]
    show ch.val * 1 + 0 = (0 * 64 + ch.val) * 1 + 0
    omega)
theorem column_of_vector (v : Vec Ideal S64 .f32) (ch : Fin 64) :
    shapeCast S1x64x1 v shapeCasts_S64_S1x64x1 (ix3 (0 : Fin 1) ch (0 : Fin 1)) = v (ix1 ch) :=
  shapeCast_apply v shapeCasts_S64_S1x64x1 _ _ (by
    rw [Shape.rowMajor_val_one, Shape.rowMajor_val_three]
    show ch.val = (0 * 64 + ch.val) * 1 + 0
    omega)

/-- The first launch's results at channel ch, over the launched x. -/
theorem W1_sum (c : Dev nD) (ch : Fin 64) :
    (W1 m ρ c (Proc.devRef .tc main_v0_0) : Vec Ideal S64x1 .f32) (ix2 ch (0 : Fin 1))
      = dsum fun b l => ly (xArg m c (ix3 b ch l)) := by
  rw [show W1 m ρ c (Proc.devRef .tc main_v0_0) = (dat0 (V0 m ρ) c).arrAt 1 cfg0.N from W1_arr m ρ c 1]
  exact Stats.sum_apply (V0 m ρ) c ch
theorem W1_sumsq (c : Dev nD) (ch : Fin 64) :
    (W1 m ρ c (Proc.devRef .tc main_v0_1) : Vec Ideal S64x1 .f32) (ix2 ch (0 : Fin 1))
      = dsum fun b l => ly (xArg m c (ix3 b ch l)) * ly (xArg m c (ix3 b ch l)) := by
  rw [show W1 m ρ c (Proc.devRef .tc main_v0_1) = (dat0 (V0 m ρ) c).arrAt 2 cfg0.N from W1_arr m ρ c 2]
  exact Stats.sumsq_apply (V0 m ρ) c ch

/-- The four columns at channel ch. -/
theorem mean_col (c : Dev nD) (ch : Fin 64) :
    (V2 m ρ c main_v10 : Vec Ideal S1x64x1 .f32) (ix3 (0 : Fin 1) ch (0 : Fin 1)) = mean (xArg m c) ch := by
  rw [V2_v10, column_of_column]
  show Ideal.div ((W1 m ρ c (Proc.devRef .tc main_v0_0) : Vec Ideal S64x1 .f32) (ix2 ch (0 : Fin 1))) (Ideal.ofBits .f32 0x497A0000#32) = _
  rw [W1_sum]
  rfl
theorem invstd_col (c : Dev nD) (ch : Fin 64) :
    (V2 m ρ c main_v11 : Vec Ideal S1x64x1 .f32) (ix3 (0 : Fin 1) ch (0 : Fin 1))
      = Ideal.rsqrt (varOfSquares (xArg m c) ch + guardBn) := by
  rw [V2_v11, column_of_column]
  show Ideal.rsqrt ((Ideal.div ((W1 m ρ c (Proc.devRef .tc main_v0_1) : Vec Ideal S64x1 .f32) (ix2 ch (0 : Fin 1))) (Ideal.ofBits .f32 0x497A0000#32)
      - Ideal.div ((W1 m ρ c (Proc.devRef .tc main_v0_0) : Vec Ideal S64x1 .f32) (ix2 ch (0 : Fin 1))) (Ideal.ofBits .f32 0x497A0000#32)
        * Ideal.div ((W1 m ρ c (Proc.devRef .tc main_v0_0) : Vec Ideal S64x1 .f32) (ix2 ch (0 : Fin 1))) (Ideal.ofBits .f32 0x497A0000#32))
      + Ideal.ofBits .f32 0x3727C5AC#32) = _
  rw [W1_sum, W1_sumsq]
  rfl
theorem gamma_col (c : Dev nD) (ch : Fin 64) :
    (V2 m ρ c main_v12 : Vec Ideal S1x64x1 .f32) (ix3 (0 : Fin 1) ch (0 : Fin 1)) = gArg m c (ix1 ch) := by
  rw [V2_v12, column_of_vector, W1_arg1]
theorem beta_col (c : Dev nD) (ch : Fin 64) :
    (V2 m ρ c main_v13 : Vec Ideal S1x64x1 .f32) (ix3 (0 : Fin 1) ch (0 : Fin 1)) = bArg m c (ix1 ch) := by
  rw [V2_v13, column_of_vector, W1_arg2]

/-! ## The second launch's result, and the program's -/

/-- The second launch's result array is the array normalised with the variance E[y²] - μ². -/
theorem normed_eq (c : Dev nD) :
    (W3 m ρ c (Proc.devRef .tc main_v14) : Vec Ideal S128x64x8000 .f32)
      = normed (xArg m c) (gArg m c) (bArg m c) (varOfSquares (xArg m c)) := by
  rw [show W3 m ρ c (Proc.devRef .tc main_v14) = (dat1 (V2 m ρ) c).arrAt 5 cfg1.N from W3_arr m ρ c 5,
    Norm.final5 (V2 m ρ) c]
  refine Norm.ext_ix3 _ _ fun b ch l => ?_
  rw [normed_ix3]
  show (ly (V2 m ρ c main_arg0 (ix3 b ch l)) - (V2 m ρ c main_v10 : Vec Ideal S1x64x1 .f32) (ix3 (0 : Fin 1) ch (0 : Fin 1)))
      * (V2 m ρ c main_v11 : Vec Ideal S1x64x1 .f32) (ix3 (0 : Fin 1) ch (0 : Fin 1))
      * (V2 m ρ c main_v12 : Vec Ideal S1x64x1 .f32) (ix3 (0 : Fin 1) ch (0 : Fin 1))
    + (V2 m ρ c main_v13 : Vec Ideal S1x64x1 .f32) (ix3 (0 : Fin 1) ch (0 : Fin 1)) = _
  rw [V2_arg0, mean_col, invstd_col, gamma_col, beta_col]
  rfl

/-- The program's result: the pool of that array. -/
theorem result_eq (c : Dev nD) :
    (W4 m ρ c (Proc.devRef .tc main_v18) : Vec Ideal S128x64x4000 .f32)
      = pool shapeCasts_S128x64x8000_S128x64x4000x2 reducesTo_S128x64x4000x2_S128x64x4000_d3 h_S_ bcast_S_S128x64x4000
          (normed (xArg m c) (gArg m c) (bArg m c) (varOfSquares (xArg m c))) := by
  rw [← normed_eq m ρ c]
  show StableHlo.after hostOps2 (W3 m ρ c) (Proc.devRef .tc main_v18) = _
  after_results
  rfl

/-- The run, read: the result array at that function of the arguments, the arguments unchanged. -/
theorem run : θ_run defs (onTc (τ := τ) (main (F := Ideal))) ⟨m, fun _ => 0, ρ⟩ fun r => ∀ c : Dev nD,
      r.2.mem ((c.tc : Thread nD τ).loc main_v18)
        = pool shapeCasts_S128x64x8000_S128x64x4000x2 reducesTo_S128x64x4000x2_S128x64x4000_d3 h_S_ bcast_S_S128x64x4000
            (normed (xArg m c) (gArg m c) (bArg m c) (varOfSquares (xArg m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (result_eq m ρ c), (h c).2⟩) (Named.run m ρ)

end Cert.KernelIdeal.Value

end
-- ==== Proof.LibReduceOuterLast.lean ====
/-
  A host float sum over the FIRST and the LAST axis of a rank-3 array, read at an index: at the exact instance entry
  `j` of the result is the initial value plus the double sum, over the first axis and over the last, of the
  operand's entries whose middle coordinate is `j`.  (The library reads a sum over one axis, and a sum into a
  result whose axes all have size one; a per-channel statistic over batch and position is the form between.)
-/
import Idealize.ShloMosaic.PureOps.Ideal
import Idealize.ShloMosaic.PureOps.Ideal.Laws
import Idealize.ShloMosaic.Lib.ValueIdx

noncomputable section

namespace Cert.LibReduceOuterLast

open Idealize.ShloMosaic Idealize.ShloMosaic.ValueIdx

/-- For any extents: entry `j` of the sum of `x` over its first and last axes is `init` plus the double sum of
    the entries `(p, j, l)`. -/
theorem hostReduceAdd_outer_last {a n k : Nat} (h' : (⟨3, ![a, n, k]⟩ : Shape).ReducesTo [0, 2] ⟨1, ![n]⟩)
    (x : (⟨3, ![a, n, k]⟩ : Shape).Idx → EReal) (init : EReal) (j : Fin n) :
    Ideal.hostReduceAdd h' x init (ix1 j) = init + ∑ p : Fin a, ∑ l : Fin k, x (ix3 p j l) := by
  classical
  unfold Ideal.hostReduceAdd
  congr 1
  -- an index drops to channel j exactly when its middle coordinate is j
  have hdrop : ∀ m : (⟨3, ![a, n, k]⟩ : Shape).Idx, h'.drop m = ix1 j ↔ m 1 = j := by
    intro m
    have hv : (h'.drop m 0 : Nat) = m 1 := Shape.ReducesTo.drop_apply_val_of_eq h' m 0 1 Nat.one_pos rfl
    constructor
    · intro e; rw [e] at hv; exact Fin.ext hv.symm
    · intro e; funext b; have hb : b = 0 := Subsingleton.elim _ _; subst hb; exact Fin.ext (by rw [hv, e]; rfl)
  -- an index of channel j is (its first coordinate, j, its third)
  have hback : ∀ m : (⟨3, ![a, n, k]⟩ : Shape).Idx, m 1 = j → ix3 (m 0 : Fin a) j (m 2 : Fin k) = m := fun m h1 => by
    funext b; match b with
    | ⟨0, _⟩ => rfl
    | ⟨1, _⟩ => exact h1.symm
    | ⟨2, _⟩ => rfl
  refine Eq.trans ?_ (Fintype.sum_prod_type' (fun (p : Fin a) (l : Fin k) => x (ix3 p j l)))
  refine Finset.sum_nbij' (fun m => ((m 0 : Fin a), (m 2 : Fin k))) (fun pl => ix3 pl.1 j pl.2)
    (fun _ _ => Finset.mem_univ _) (fun pl _ => Finset.mem_filter.2 ⟨Finset.mem_univ _, (hdrop _).2 rfl⟩)
    (fun m hm => hback m ((hdrop m).1 (Finset.mem_filter.1 hm).2)) (fun _ _ => rfl) ?_
  intro m hm
  exact (congrArg x (hback m ((hdrop m).1 (Finset.mem_filter.1 hm).2))).symm

/-- The same at the literal extents 128 x 64 x 8000 (stated apart so that it rewrites a goal over literal shapes). -/
theorem hostReduceAdd_128_64_8000 (h' : (⟨3, ![128, 64, 8000]⟩ : Shape).ReducesTo [0, 2] ⟨1, ![64]⟩)
    (x : (⟨3, ![128, 64, 8000]⟩ : Shape).Idx → EReal) (init : EReal) (j : Fin 64) :
    Ideal.hostReduceAdd h' x init (ix1 j) = init + ∑ p : Fin 128, ∑ l : Fin 8000, x (ix3 p j l) :=
  hostReduceAdd_outer_last h' x init j

end Cert.LibReduceOuterLast

end
-- ==== Proof.RefValue.lean ====
/-
  The reference as a function of its arguments.

  It compresses x entry by entry, takes each channel's mean μ over batch and position, takes the variance as the mean
  of the squared deviations (y - μ)², scales the centred entries by the inverse square root of the guarded variance,
  by the weight, adds the bias, and averages neighbouring pairs.  So its result is the pool of the array normalised
  with the variance taken as the mean of the squared deviations.
-/
import proofs.«419528_j10256381903615_3_alg».proof.Proof.Gen.ReferenceIdeal.Run
import proofs.«419528_j10256381903615_3_alg».proof.Proof.Gen.ReferenceIdeal.Read
import proofs.«419528_j10256381903615_3_alg».proof.Proof.Spec
import proofs.«419528_j10256381903615_3_alg».proof.Proof.LibReduceOuterLast
import Idealize.ShloMosaic.Lib.ValueIdx
import Idealize.ShloMosaic.PureOps.Ideal.Laws

open scoped BigOperators

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.LogBn

/-- Two arrays of rank three are equal when they agree at every triple of coordinates. -/
theorem ext_ix3 {α : Type} {n0 n1 n2 : ℕ} (f g : (⟨3, ![n0, n1, n2]⟩ : Shape).Idx → α)
    (h : ∀ (a : Fin n0) (b : Fin n1) (c : Fin n2), f (ix3 a b c) = g (ix3 a b c)) : f = g :=
  funext fun j => by rw [eq_ix3 j]; exact h _ _ _

variable (x0 : (⟨S128x64x8000, .f32⟩ : BufTy).Contents (Elt Ideal)) (x1 x2 : (⟨S64, .f32⟩ : BufTy).Contents (Elt Ideal))

/-- The per-channel columns are read at (0, ch, 0), whatever the batch row and position; a column's entry is the
    vector's entry ch. -/
theorem idx_col (b : Fin 128) (ch : Fin 64) (l : Fin 8000) :
    idx_main_v8 (ix3 b ch l) = ix3 (0 : Fin 1) ch (0 : Fin 1) := by
  funext a
  match a with
  | ⟨0, _⟩ => rfl
  | ⟨1, _⟩ => rfl
  | ⟨2, _⟩ => rfl
theorem idx_vec (ch : Fin 64) : idx_main_v5 (ix3 (0 : Fin 1) ch (0 : Fin 1)) = ix1 ch := by
  funext a
  match a with
  | ⟨0, _⟩ => rfl

/-- The compressed array. -/
theorem ly_apply (i : S128x64x8000.Idx) : val_main_v3 (F := Ideal) x0 i = ly (x0 i) := rfl

/-- A channel's mean. -/
theorem mean_apply (ch : Fin 64) : val_main_v7 (F := Ideal) x0 (ix3 (0 : Fin 1) ch (0 : Fin 1)) = mean x0 ch := by
  rw [val_main_v7_apply, val_main_v5_apply, idx_vec]
  show Ideal.div (Ideal.hostReduceAdd reducesTo_S128x64x8000_S64_d0_2 (val_main_v3 (F := Ideal) x0) (Ideal.ofBits .f32 0x00000000#32) (ix1 ch))
    (Ideal.ofBits .f32 0x497A0000#32) = _
  rw [LibReduceOuterLast.hostReduceAdd_128_64_8000, Ideal.ofBits_zero_f32, zero_add]
  rfl

/-- A channel's variance: the mean of the squared deviations. -/
theorem var_apply (ch : Fin 64) :
    val_main_v14 (F := Ideal) x0 (ix3 (0 : Fin 1) ch (0 : Fin 1)) = varOfDeviations x0 ch := by
  rw [val_main_v14_apply, val_main_v12_apply, show idx_main_v12 (ix3 (0 : Fin 1) ch (0 : Fin 1)) = ix1 ch from idx_vec ch]
  show Ideal.div (Ideal.hostReduceAdd reducesTo_S128x64x8000_S64_d0_2 (val_main_v10 (F := Ideal) x0) (Ideal.ofBits .f32 0x00000000#32) (ix1 ch))
    (Ideal.ofBits .f32 0x497A0000#32) = _
  rw [LibReduceOuterLast.hostReduceAdd_128_64_8000, Ideal.ofBits_zero_f32, zero_add]
  unfold varOfDeviations dsum LogBn.count
  refine congrArg (fun s => Ideal.div s _) ?_
  refine Finset.sum_congr rfl fun p _ => Finset.sum_congr rfl fun l _ => ?_
  rw [val_main_v10_apply, val_main_v9_apply, val_main_v8_apply, idx_col, mean_apply, ly_apply]
  rfl

/-- The normalised array, entry by entry. -/
theorem normed_eq : val_main_v27 (F := Ideal) x0 x1 x2 = normed x0 x1 x2 (varOfDeviations x0) := by
  refine ext_ix3 _ _ fun b ch l => ?_
  rw [normed_ix3, val_main_v27_apply, val_main_v24_apply, val_main_v21_apply, val_main_v16_apply, val_main_v15_apply,
    show idx_main_v15 (ix3 b ch l) = ix3 (0 : Fin 1) ch (0 : Fin 1) from idx_col b ch l, mean_apply,
    val_main_v20_apply, show idx_main_v20 (ix3 b ch l) = ix3 (0 : Fin 1) ch (0 : Fin 1) from idx_col b ch l,
    val_main_v19_apply, val_main_v18_apply, var_apply,
    val_main_v23_apply, show idx_main_v23 (ix3 b ch l) = ix3 (0 : Fin 1) ch (0 : Fin 1) from idx_col b ch l,
    val_main_v22_apply, show idx_main_v22 (ix3 (0 : Fin 1) ch (0 : Fin 1)) = ix1 ch from idx_vec ch,
    val_main_v26_apply, show idx_main_v26 (ix3 b ch l) = ix3 (0 : Fin 1) ch (0 : Fin 1) from idx_col b ch l,
    val_main_v25_apply, show idx_main_v25 (ix3 (0 : Fin 1) ch (0 : Fin 1)) = ix1 ch from idx_vec ch, ly_apply]
  rfl

/-- The reference's result: the pool of that array. -/
theorem result_eq : val_main_v31 (F := Ideal) x0 x1 x2
    = pool shapeCasts_S128x64x8000_S128x64x4000x2 reducesTo_S128x64x4000x2_S128x64x4000_d3 h_S_ bcast_S_S128x64x4000
        (normed x0 x1 x2 (varOfDeviations x0)) := by
  rw [← normed_eq]
  rfl

end Cert.ReferenceIdeal.RefValue

end
-- ==== Proof.lean ====
/-
  Log compression, batch normalisation and a 2 : 1 average pool: the kernel against its reference.

  Both programs compress x entry by entry to y = log (|x| + ε), normalise every channel with its mean μ and its
  variance over batch and position, scale by the channel's weight, add its bias, and average neighbouring pairs along
  the last axis.  They differ in two ways.  The kernel gathers Σ y and Σ y² block by block in a first launch and takes
  the variance as (Σ y²) / N - μ²; the reference sums in one step and takes it as (Σ (y - μ)²) / N.  Over the extended
  reals a sum may be taken in any order and grouping, so the kernel's two sums are the reference's Σ y and the plain
  Σ y²; and the two forms of the variance are one number when the entries y are real numbers, which they are because
  the precondition makes every entry of x a real number and |x| + ε is then a positive real.  From the variance on the
  two programs apply the same operations to equal values.

  The modules: Spec (the functions and the equality of the two variances, over Algebra and Consts), Finite (the
  precondition read back), RunNamed with Stats, Norm and KernelValue (the kernel's program as a function of its
  arguments), RefValue (the reference's).
-/
import proofs.«419528_j10256381903615_3_alg».proof.Defs
import proofs.«419528_j10256381903615_3_alg».proof.Proof.Gen.Kernel
import proofs.«419528_j10256381903615_3_alg».proof.Proof.Gen.Kernel.Skeleton
import proofs.«419528_j10256381903615_3_alg».proof.Proof.Gen.Kernel.Launch
import proofs.«419528_j10256381903615_3_alg».proof.Proof.Gen.Kernel.Points
import proofs.«419528_j10256381903615_3_alg».proof.Proof.Gen.Kernel.Frame
import proofs.«419528_j10256381903615_3_alg».proof.Proof.Gen.KernelIdeal
import proofs.«419528_j10256381903615_3_alg».proof.Proof.Gen.KernelIdeal.Skeleton
import proofs.«419528_j10256381903615_3_alg».proof.Proof.Gen.KernelIdeal.Launch
import proofs.«419528_j10256381903615_3_alg».proof.Proof.Gen.KernelIdeal.Points
import proofs.«419528_j10256381903615_3_alg».proof.Proof.Gen.KernelIdeal.Frame
import proofs.«419528_j10256381903615_3_alg».proof.Proof.Gen.ReferenceIdeal
import proofs.«419528_j10256381903615_3_alg».proof.Proof.Gen.Pre_finite_inputs
import proofs.«419528_j10256381903615_3_alg».proof.Proof.Gen.ReferenceIdeal.Run
import proofs.«419528_j10256381903615_3_alg».proof.Proof.Gen.ReferenceIdeal.Read
import proofs.«419528_j10256381903615_3_alg».proof.Proof.Spec
import proofs.«419528_j10256381903615_3_alg».proof.Proof.Finite
import proofs.«419528_j10256381903615_3_alg».proof.Proof.KernelValue
import proofs.«419528_j10256381903615_3_alg».proof.Proof.RefValue
import Idealize.ShloMosaic.Adequacy
import Idealize.ShloMosaic.Init

noncomputable section

namespace Cert.Proof

open Idealize.ShloMosaic Idealize.SL.Sem Cert.LogBn

/-- The word-level kernel and its reading over the extended reals run, fault nowhere and leave their arguments. -/
theorem frame_kernel : Cert.frame_Kernel := fun m ρ _ => Cert.Kernel.Gen.frame m ρ
theorem frame_kernelIdeal : Cert.frame_KernelIdeal := fun m ρ _ => Cert.KernelIdeal.Gen.frame m ρ

/-- The reference runs: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel over the extended reals rewrote no operation. -/
theorem preserves : Cert.preserves_Kernel_KernelIdeal := trivial

/-- Both programs end at the pool of the normalised array; the kernel's variance is the mean of the squares less the
    square of the mean, the reference's the mean of the squared deviations, and the two agree because the
    precondition makes every entry of x a real number. -/
theorem algebraic : Cert.algebraic_KernelIdeal_ReferenceIdeal := by
  intro m ρ m' ρ' hpre hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.ReferenceIdeal.RefValue.result_eq, (hagree c).1, (hagree c).2.1,
    (hagree c).2.2]
  have hx : ∀ i, ∃ r : ℝ, Cert.KernelIdeal.Value.xArg m c i = (r : EReal) := Finite.x_real _ _ _ (hpre c)
  have hv : varOfDeviations (Cert.KernelIdeal.Value.xArg m c) = varOfSquares (Cert.KernelIdeal.Value.xArg m c) :=
    funext fun ch => (varOfSquares_eq_varOfDeviations _ hx ch).symm
  show pool _ _ _ _ (normed (Cert.KernelIdeal.Value.xArg m c) (Cert.KernelIdeal.Value.gArg m c) (Cert.KernelIdeal.Value.bArg m c)
    (varOfDeviations (Cert.KernelIdeal.Value.xArg m c))) = _
  rw [hv]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
